-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x8192 : Shape := ⟨3, ![4, 1024, 8192]⟩
abbrev S8192x1024 : Shape := ⟨2, ![8192, 1024]⟩
abbrev S_ : Shape := ⟨0, ![]⟩

class Facts : Prop where
  bcast_S_S4x1024x8192 : S_.BroadcastsInDim S4x1024x8192 (![] : Fin 0 → Fin S4x1024x8192.rank)
  reducesTo_S4x1024x8192_S_d0_1_2 : S4x1024x8192.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S4x1024x8192 .f32) (main_arg1 : FVec F S8192x1024 .f32) : IVec S_ 1 :=
  let main_v0 : FVec F S4x1024x8192 .f32 := Host.absf main_arg0
  let main_cst : FVec F S_ .f32 := constant S_ .f32 0x7F800000#32
  let main_v1 : FVec F S4x1024x8192 .f32 := broadcastInDim S4x1024x8192 ![] bcast_S_S4x1024x8192 main_cst
  let main_v2 : IVec S4x1024x8192 1 := cmpf .olt main_v0 main_v1
  let main_c : IVec S_ 1 := constantI S_ 1 1#1
  let main_v3 : IVec S_ 1 := (fun x v => Host.reduce IntOp.andi x v reducesTo_S4x1024x8192_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S4x1024x8192 : Shape := ⟨3, ![4, 1024, 8192]⟩
abbrev S8192x1024 : Shape := ⟨2, ![8192, 1024]⟩
abbrev S4x256x2048 : Shape := ⟨3, ![4, 256, 2048]⟩
abbrev S2048x256 : Shape := ⟨2, ![2048, 256]⟩
abbrev S256x2048 : Shape := ⟨2, ![256, 2048]⟩
abbrev S1x256x2048 : Shape := ⟨3, ![1, 256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4x1024x8192, .f32⟩
  | .hbm, ⟨1, _⟩ => ⟨S8192x1024, .f32⟩
  | .hbm, ⟨2, _⟩ => ⟨S4x1024x8192, .f32⟩
  | .local _ .vmem, ⟨0, _⟩ => ⟨S4x256x2048, .f32⟩
  | .local _ .vmem, ⟨1, _⟩ => ⟨S4x256x2048, .f32⟩
  | .local _ .vmem, ⟨2, _⟩ => ⟨S2048x256, .f32⟩
  | .local _ .vmem, ⟨3, _⟩ => ⟨S2048x256, .f32⟩
  | .local _ .vmem, ⟨4, _⟩ => ⟨S4x256x2048, .f32⟩
  | .local _ .vmem, ⟨5, _⟩ => ⟨S4x256x2048, .f32⟩
  | _, _ => ⟨S4x1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S4x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S2048x256_S2048x256_0_0 : ∀ a, (![0, 0] : Fin 2 → Nat) a + S2048x256.size a ≤ S2048x256.size a
  h_S2048x256 : 0 < S2048x256.numel
  transposes_S2048x256_p1_0_S256x2048 : S2048x256.Transposes [1, 0] S256x2048
  inb_S4x256x2048_S4x256x2048_0_0_0 : ∀ a, (![0, 0, 0] : Fin 3 → Nat) a + S4x256x2048.size a ≤ S4x256x2048.size a
  h_S4x256x2048 : 0 < S4x256x2048.numel
  shapeCasts_S256x2048_S1x256x2048 : S256x2048.ShapeCasts S1x256x2048
  broadcasts_S1x256x2048_S4x256x2048 : S1x256x2048.Broadcasts S4x256x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x2048.size a ≤ S4x1024x8192.size a
  hwx0_0 : ∀ i : grid0.Coords, EltTy.bits .f32 = 32 ∨ (Rect.block (s := S4x1024x8192) S4x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x1024.size a
  hwx0_1 : ∀ i : grid0.Coords, EltTy.bits .f32 = 32 ∨ (Rect.block (s := S8192x1024) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x2048.size a ≤ S4x1024x8192.size a
  hwx0_2 : ∀ i : grid0.Coords, EltTy.bits .f32 = 32 ∨ (Rect.block (s := S4x1024x8192) S4x256x2048.size (cc0_transform_2 i) (hinb0_2 i)).WholeWords (EltTy.packing .f32)

variable [Facts₀]

abbrev win0_0 : Pipeline.Window sig grid0 :=
  Pipeline.Window.ofSpec (Memref.whole main_arg0) S4x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x1024x8192 : Shape := ⟨3, ![4, 1024, 8192]⟩
abbrev S8192x1024 : Shape := ⟨2, ![8192, 1024]⟩
abbrev S8192 : Shape := ⟨1, ![8192]⟩
abbrev S1x8192 : Shape := ⟨2, ![1, 8192]⟩
abbrev S4x8192 : Shape := ⟨2, ![4, 8192]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩
abbrev S4x8192x1024 : Shape := ⟨3, ![4, 8192, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4x1024x8192, .f32⟩
  | .hbm, ⟨1, _⟩ => ⟨S8192x1024, .f32⟩
  | .hbm, ⟨2, _⟩ => ⟨S8192, .i32⟩
  | .hbm, ⟨3, _⟩ => ⟨S1x8192, .i32⟩
  | .hbm, ⟨4, _⟩ => ⟨S4x8192, .i32⟩
  | .hbm, ⟨5, _⟩ => ⟨S_, .i32⟩
  | .hbm, ⟨6, _⟩ => ⟨S4x8192, .i32⟩
  | .hbm, ⟨7, _⟩ => ⟨S4x8192, .i1⟩
  | .hbm, ⟨8, _⟩ => ⟨S_, .i32⟩
  | .hbm, ⟨9, _⟩ => ⟨S4x8192, .i32⟩
  | .hbm, ⟨10, _⟩ => ⟨S4x8192, .i32⟩
  | .hbm, ⟨11, _⟩ => ⟨S4x8192, .i32⟩
  | .hbm, ⟨12, _⟩ => ⟨S4x8192x1, .i32⟩
  | .hbm, ⟨13, _⟩ => ⟨S1, .i32⟩
  | .hbm, ⟨14, _⟩ => ⟨S_, .i32⟩
  | .hbm, ⟨15, _⟩ => ⟨S4x8192x1, .i32⟩
  | .hbm, ⟨16, _⟩ => ⟨S4x8192x1, .i1⟩
  | .hbm, ⟨17, _⟩ => ⟨S1x1x1, .i32⟩
  | .hbm, ⟨18, _⟩ => ⟨S4x8192x1, .i32⟩
  | .hbm, ⟨19, _⟩ => ⟨S4x8192x1, .i1⟩
  | .hbm, ⟨20, _⟩ => ⟨S4x8192x1, .i1⟩
  | .hbm, ⟨21, _⟩ => ⟨S_, .i1⟩
  | .hbm, ⟨22, _⟩ => ⟨S4x8192, .i1⟩
  | .hbm, ⟨23, _⟩ => ⟨S4x8192x1024, .f32⟩
  | .hbm, ⟨24, _⟩ => ⟨S4x8192x1024, .i1⟩
  | .hbm, ⟨25, _⟩ => ⟨S_, .f32⟩
  | .hbm, ⟨26, _⟩ => ⟨S4x8192x1024, .f32⟩
  | .hbm, ⟨27, _⟩ => ⟨S4x8192x1024, .f32⟩
  | .hbm, ⟨28, _⟩ => ⟨S4x1024x8192, .f32⟩
  | .hbm, ⟨29, _⟩ => ⟨S4x1024x8192, .f32⟩
  | _, _ => ⟨S4x1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S4x8192_0_1 : S1x8192.BroadcastsInDim S4x8192 (![0, 1] : Fin 2 → Fin S4x8192.rank)
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S1_S1x1x1_2 : S1.BroadcastsInDim S1x1x1 (![2] : Fin 1 → Fin S1x1x1.rank)
  bcast_S1x1x1_S4x8192x1_0_1_2 : S1x1x1.BroadcastsInDim S4x8192x1 (![0, 1, 2] : Fin 3 → Fin S4x8192x1.rank)
  reducesTo_S4x8192x1_S4x8192_d2 : S4x8192x1.ReducesTo [2] S4x8192
  h_S_ : 0 < S_.numel
  bcast_S4x8192_S4x8192x1024_0_1 : S4x8192.BroadcastsInDim S4x8192x1024 (![0, 1] : Fin 2 → Fin S4x8192x1024.rank)
  bcast_S_S4x8192x1024 : S_.BroadcastsInDim S4x8192x1024 (![] : Fin 0 → Fin S4x8192x1024.rank)
  transposes_S4x8192x1024_S4x1024x8192_0_2_1 : S4x8192x1024.Transposes [0, 2, 1] S4x1024x8192
  gather_S8192x1024_S4x8192x1_S4x8192x1024_2_0_n_n_0_2_11024_wf : GatherDims.WF S8192x1024 S4x8192x1 S4x8192x1024 [2] [0] [] [0] [] 2 ![1, 1024]

variable [Facts₀]

def gather_S8192x1024_S4x8192x1_S4x8192x1024_2_0_n_n_0_2_11024 : GatherDims S8192x1024 S4x8192x1 S4x8192x1024 where
  offsetDims := [2]
  collapsedSliceDims := [0]
  operandBatchingDims := []
  startIndicesBatchingDims := []
  startIndexMap := [0]
  indexVectorDim := 2
  sliceSizes := ![1, 1024]
  wf := gather_S8192x1024_S4x8192x1_S4x8192x1024_2_0_n_n_0_2_11024_wf

class Facts : Prop extends Facts₀ where

variable [Facts]
-- ==== Proof.PosAdd.lean ====
/-
  The value both programs compute, as one function of the two argument arrays.

  For an activation array `x` of extents [4, 1024, 8192] (batch, feature, position) and a table `pos` of
  extents [8192, 1024] (position, feature), the result at (b, d, s) is `x (b, d, s) + pos (s, d)`: the table,
  transposed, is added to every batch. Nothing else is computed, so the statement holds at every float
  instance: the only float operation is one addition per element.
-/
import Idealize.ShloMosaic.PureOps

noncomputable section

namespace Cert.PosAdd

open Idealize.ShloMosaic

variable {F : FTy → Type} [FloatOps F]

/-- The activation array's shape: batch × feature × position. -/
abbrev SX : Shape := ⟨3, ![4, 1024, 8192]⟩
/-- The table's shape: position × feature. -/
abbrev SP : Shape := ⟨2, ![8192, 1024]⟩

/-- The table entry an activation index reads: its position, then its feature (the transposed pair). -/
abbrev tableIdx (i : SX.Idx) : SP.Idx := fun a => match a with
  | ⟨0, _⟩ => ⟨(i 2).val, (i 2).isLt⟩
  | ⟨1, _⟩ => ⟨(i 1).val, (i 1).isLt⟩

/-- The result array: each activation plus the table entry of its position and feature. -/
def posAdd (x : SX.Idx → Elt F .f32) (pos : SP.Idx → Elt F .f32) : SX.Idx → Elt F .f32 :=
  fun i => FloatOps.addf (x i) (pos (tableIdx i))

theorem posAdd_apply (x : SX.Idx → Elt F .f32) (pos : SP.Idx → Elt F .f32) (i : SX.Idx) :
    posAdd x pos i = FloatOps.addf (x i) (pos (tableIdx i)) := rfl

end Cert.PosAdd

end
-- ==== Proof.KernelArray.lean ====
/-
  The kernel's result array as one function of the argument arrays.

  The grid has 4 × 4 points (feature tile, position tile). At a point the kernel stages the activation block
  [4, 256, 2048] at block index (0, d, s), the table block [2048, 256] at block index (s, d), and writes the
  output block at (0, d, s). What it writes at block coordinate (b, p, q) is the activation at (b, p, q) plus the
  table block at (q, p): the table block transposed and repeated over the batch (the generated value leg's
  `canon2_eq`). A block coordinate sits in its array at block index × block extent + coordinate, so the
  activation read is the one at the output's own array index, and the table read is at (position, feature) of
  that index: block by block the output is `posAdd` of the two arrays. The sixteen output blocks tile the array
  — the block over (b, f, s) is the point (f / 256, s / 2048) — so the whole array ends at `posAdd`.
-/
import proofs.«166556_g19473381720736_cont_8to1_602_5_alg».proof.Proof.Gen.KernelIdeal.Value
import proofs.«166556_g19473381720736_cont_8to1_602_5_alg».proof.Proof.PosAdd

set_option maxRecDepth 16384

noncomputable section

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Cert.PosAdd (posAdd tableIdx)

variable {F : FTy → Type} [FloatOps F]
variable (m : (ℓ : Loc nD τ sig) → Buf (Elt F) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The printed index maps over the sixteen points: the activation window moves with the output window, the
    table window sits at the output's (position tile, feature tile), and the tiles stay in range. -/
theorem tiles : ∀ t : Fin cfg0.N,
    win0_0.index t (0 : Fin 3) = win0_2.index t (0 : Fin 3)
    ∧ win0_0.index t (1 : Fin 3) = win0_2.index t (1 : Fin 3)
    ∧ win0_0.index t (2 : Fin 3) = win0_2.index t (2 : Fin 3)
    ∧ win0_1.index t (0 : Fin 2) = win0_2.index t (2 : Fin 3)
    ∧ win0_1.index t (1 : Fin 2) = win0_2.index t (1 : Fin 3)
    ∧ win0_2.index t (0 : Fin 3) = 0
    ∧ win0_2.index t (1 : Fin 3) ≤ 3
    ∧ win0_2.index t (2 : Fin 3) ≤ 3 :=
  (by decide +kernel : ∀ t : Fin grid0.N, _)

/-- Every (feature tile, position tile) is some point's output block. -/
theorem tiles_onto : ∀ (q1 : Fin 4) (q2 : Fin 4), ∃ t : Fin cfg0.N, win0_2.index t = ![0, q1.val, q2.val] :=
  (by decide +kernel : ∀ (q1 : Fin 4) (q2 : Fin 4), ∃ t : Fin grid0.N, win0_2.index t = ![0, q1.val, q2.val])

/-- What the body leaves in the output block, for any two input blocks: at block coordinate (b, p, q) the activation
    block at (b, p, q) plus the table block at (q, p). -/
theorem block_apply (x0 : Vec F S4x256x2048 .f32) (x1 : Vec F S2048x256 .f32) (y : S4x256x2048.Idx) :
    out0_2 x0 x1 y = FloatOps.addf (x0 (ix2_0 y)) (x1 (ix2_1 y)) := by
  unfold out0_2
  rw [canon2_eq]
  simp only [View.ld_unit_zero (S := S4x256x2048) zero3, View.ld_unit_zero (S := S2048x256) zero2]

/-- What a point writes back is its block of `posAdd` of the two arrays as the region finds them. -/
theorem flushed_eq (c : Dev nD) (t : Fin cfg0.N) :
    (dats m 0 c).flushed 2 t
      = ((cfg0.win 2).blk t).view.read (Elt F) (posAdd (V m c main_arg0) (V m c main_arg1)) := by
  show (cfg0.win 2).cut (grid0.coords t) ((dats m 0 c).after 2 t) = _
  rw [after0_2]
  obtain ⟨e0, e1, e2, e3, e4, e5, e6, e7⟩ := tiles t
  funext y
  have hy0 : (y 0).val < 4 := (y 0).isLt
  have hy1 : (y 1).val < 256 := (y 1).isLt
  have hy2 : (y 2).val < 2048 := (y 2).isLt
  refine (block_apply (iblk m c 0 t) (iblk m c 1 t) y).trans ?_
  show FloatOps.addf (V m c main_arg0 (((cfg0.win 0).blk t).view.emb (ix2_0 y))) (V m c main_arg1 (((cfg0.win 1).blk t).view.emb (ix2_1 y)))
      = FloatOps.addf (V m c main_arg0 (((cfg0.win 2).blk t).view.emb y)) (V m c main_arg1 (tableIdx (((cfg0.win 2).blk t).view.emb y)))
  have h0 : ((cfg0.win 0).blk t).view.emb (ix2_0 y) = ((cfg0.win 2).blk t).view.emb y := by
    funext a; apply Fin.ext
    match a with
    | ⟨0, _⟩ => show win0_0.index t (0 : Fin 3) * 4 + 1 * (y 0).val = win0_2.index t (0 : Fin 3) * 4 + 1 * (y 0).val; omega
    | ⟨1, _⟩ => show win0_0.index t (1 : Fin 3) * 256 + 1 * (y 1).val = win0_2.index t (1 : Fin 3) * 256 + 1 * (y 1).val; omega
    | ⟨2, _⟩ => show win0_0.index t (2 : Fin 3) * 2048 + 1 * (y 2).val = win0_2.index t (2 : Fin 3) * 2048 + 1 * (y 2).val; omega
  have h1 : ((cfg0.win 1).blk t).view.emb (ix2_1 y) = tableIdx (((cfg0.win 2).blk t).view.emb y) := by
    funext a; apply Fin.ext
    match a with
    | ⟨0, _⟩ => show win0_1.index t (0 : Fin 2) * 2048 + 1 * (y 2).val = win0_2.index t (2 : Fin 3) * 2048 + 1 * (y 2).val; omega
    | ⟨1, _⟩ => show win0_1.index t (1 : Fin 2) * 256 + 1 * (y 1).val = win0_2.index t (1 : Fin 3) * 256 + 1 * (y 1).val; omega
  rw [h0, h1]

/-- An index of the output array is in a point's block iff each coordinate is in the block's range on its axis. -/
theorem mem_blk (t : Fin cfg0.N) (i : S4x1024x8192.Idx) :
    i ∈ ((cfg0.win 2).blk t).view.set ↔ ∀ a : Fin 3, win0_2.index t a * S4x256x2048.size a ≤ (i a).val ∧ (i a).val < win0_2.index t a * S4x256x2048.size a + S4x256x2048.size a := by
  show i ∈ ((View.whole main_v0).slice (win0_2.rect t)).set ↔ _
  rw [View.set_slice_whole, Rect.mem_set_unit]
  exact Iff.rfl

/-- The output blocks tile the array: the block over (b, f, s) is the one at tiles (f / 256, s / 2048). -/
theorem cover (i : S4x1024x8192.Idx) :
    ∃ t : Fin cfg0.N, (cfg0.win 2).flush t = true ∧ i ∈ ((cfg0.win 2).blk t).view.set := by
  have hi0 : (i 0).val < 4 := (i 0).isLt
  have hi1 : (i 1).val < 1024 := (i 1).isLt
  have hi2 : (i 2).val < 8192 := (i 2).isLt
  obtain ⟨t, ht⟩ := tiles_onto ⟨(i 1).val / 256, by omega⟩ ⟨(i 2).val / 2048, by omega⟩
  have q0 : win0_2.index t (0 : Fin 3) = 0 := congrFun ht 0
  have q1 : win0_2.index t (1 : Fin 3) = (i 1).val / 256 := congrFun ht 1
  have q2 : win0_2.index t (2 : Fin 3) = (i 2).val / 2048 := congrFun ht 2
  refine ⟨t, flush0_2 t, ?_⟩
  rw [mem_blk]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 256 ≤ (i 1).val ∧ (i 1).val < win0_2.index t (1 : Fin 3) * 256 + 256; omega
  | ⟨2, _⟩ => show win0_2.index t (2 : Fin 3) * 2048 ≤ (i 2).val ∧ (i 2).val < win0_2.index t (2 : Fin 3) * 2048 + 2048; omega

/-- The output array after the run is `posAdd` of the argument arrays. -/
theorem final (c : Dev nD) :
    (dats m 0 c).arrAt 2 cfg0.N = posAdd (m ((c : Thread nD τ).loc main_arg0)) (m ((c : Thread nD τ).loc main_arg1)) :=
  (dats m 0 c).arrAt_eq_of_cover 2 (posAdd (V m c main_arg0) (V m c main_arg1)) (fun t _ => flushed_eq m c t) cover

/-- The kernel's run with the result named: the output array ends at `posAdd` of the arguments, which end as launched. -/
theorem run : θ_run defs (onTc (τ := τ) (main (F := F))) ⟨m, fun _ => 0, ρ⟩ fun r => ∀ c : Dev nD,
      r.2.mem ((c : Thread nD τ).loc main_v0) = posAdd (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.RefRun.lean ====
/-
  The reference program's run, read back.

  The reference looks the table up at `positions = arange`, broadcast over the batch: its @main is a straight line
  of 28 host operations once the two outlined functions are inlined at their calls — the index array (an iota
  broadcast twice), the lookup's index handling (a negative index wrapped by the table's length, then the
  test that the wrapped index lies in [0, 8191]), the gather of table rows, the select against the fill value
  where the test fails, the transpose to (batch, feature, position) and the addition to the activations.
  Every weakly fair execution terminates with the result buffer at `refTerm` of the two argument arrays and the
  arguments unchanged.
-/
import proofs.«166556_g19473381720736_cont_8to1_602_5_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The result as one term of the arguments -/

/-- The index array: position `s` at every (batch, position). -/
def positions : IVec S4x8192 32 :=
  broadcastInDim S4x8192 ![0, 1] bcast_S1x8192_S4x8192_0_1 (broadcastInDim S1x8192 ![1] bcast_S8192_S1x8192_1 (iotaInDim S8192 32 0))

/-- The lookup's index handling: a negative index counts from the table's end. -/
def wrapped (p : IVec S4x8192 32) : IVec S4x8192 32 :=
  select (cmpi .slt p (broadcastInDim S4x8192 ![] bcast_S_S4x8192 (constantI S_ 32 0#32)))
    (addi p (broadcastInDim S4x8192 ![] bcast_S_S4x8192 (constantI S_ 32 8192#32))) p

/-- The gather's start indices: the wrapped index as a one-component index vector. -/
def startIdx (p : IVec S4x8192 32) : IVec S4x8192x1 32 :=
  broadcastInDim S4x8192x1 ![0, 1] bcast_S4x8192_S4x8192x1_0_1 (wrapped p)

/-- The test that a start index lies inside the table: 0 ≤ index ≤ 8191, over the one component. -/
def inRange (q : IVec S4x8192x1 32) : IVec S4x8192 1 :=
  Host.reduce IntOp.andi
    (andi (cmpi .sge q (broadcastInDim S4x8192x1 ![] bcast_S_S4x8192x1 (constantI S_ 32 0#32)))
      (cmpi .sle q (broadcastInDim S4x8192x1 ![0, 1, 2] bcast_S1x1x1_S4x8192x1_0_1_2
        (broadcastInDim S1x1x1 ![2] bcast_S1_S1x1x1_2 (constantI S1 32 8191#32)))))
    (constantI S_ 1 1#1) reducesTo_S4x8192x1_S4x8192_d2 h_S_

/-- The lookup: the gathered table rows where the index is in range, the fill value elsewhere. -/
def taken (pos : FVec F S8192x1024 .f32) (p : IVec S4x8192 32) : FVec F S4x8192x1024 .f32 :=
  select (broadcastInDim S4x8192x1024 ![0, 1] bcast_S4x8192_S4x8192x1024_0_1 (inRange (startIdx p)))
    (Host.gather gather_S8192x1024_S4x8192x1_S4x8192x1024_2_0_n_n_0_2_11024 pos (startIdx p))
    (broadcastInDim S4x8192x1024 ![] bcast_S_S4x8192x1024 (constant S_ .f32 0x7FC00000#32))

/-- The reference's result: the activations plus the looked-up rows, transposed to (batch, feature, position). -/
def refTerm (x : FVec F S4x1024x8192 .f32) (pos : FVec F S8192x1024 .f32) : FVec F S4x1024x8192 .f32 :=
  addf x (transpose S4x1024x8192 [0, 2, 1] (taken pos positions) transposes_S4x8192x1024_S4x1024x8192_0_2_1)

/-! ## @main as a list of operations -/

/-- @main's operations in order, the calls unfolded: three for the index array; the lookup's twenty-three
    (among them the inner select of the wrap, one operation); the transpose; the addition. -/
abbrev ops : List (HloOp τ sig (Elt F)) :=
  [ nullary main_v0 (iotaInDim S8192 32 0),
    unary main_v0 main_v1 (broadcastInDim S1x8192 ![1] bcast_S8192_S1x8192_1 : (⟨S8192, .i32⟩ : BufTy).Contents (Elt F) → (⟨S1x8192, .i32⟩ : BufTy).Contents (Elt F)),
    unary main_v1 main_v2 (broadcastInDim S4x8192 ![0, 1] bcast_S1x8192_S4x8192_0_1 : (⟨S1x8192, .i32⟩ : BufTy).Contents (Elt F) → (⟨S4x8192, .i32⟩ : BufTy).Contents (Elt F)),
    TRef.nullary main_call0.c (constantI S_ 32 0#32),
    TRef.unary main_call0.c main_call0.v0 (broadcastInDim S4x8192 ![] bcast_S_S4x8192),
    TRef.binary (.of main_v2) main_call0.v0 main_call0.v1 (cmpi .slt),
    TRef.nullary main_call0.c_0 (constantI S_ 32 8192#32),
    TRef.unary main_call0.c_0 main_call0.v2 (broadcastInDim S4x8192 ![] bcast_S_S4x8192),
    TRef.binary (.of main_v2) main_call0.v2 main_call0.v3 addi,
    TRef.ternary main_call0.v1 main_call0.v3 (.of main_v2) main_call0.call0.v0 select,
    TRef.unary main_call0.call0.v0 main_call0.v5 (broadcastInDim S4x8192x1 ![0, 1] bcast_S4x8192_S4x8192x1_0_1),
    TRef.nullary main_call0.c_1 (constantI S1 32 8191#32),
    TRef.nullary main_call0.c_2 (constantI S_ 32 0#32),
    TRef.unary main_call0.c_2 main_call0.v6 (broadcastInDim S4x8192x1 ![] bcast_S_S4x8192x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x8192x1 ![0, 1, 2] bcast_S1x1x1_S4x8192x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x8192x1_S4x8192_d2 h_S_),
    TRef.binary (.of main_arg1) main_call0.v5 main_call0.v13 (fun x i => Host.gather gather_S8192x1024_S4x8192x1_S4x8192x1024_2_0_n_n_0_2_11024 x i),
    TRef.unary main_call0.v12 main_call0.v14 (broadcastInDim S4x8192x1024 ![0, 1] bcast_S4x8192_S4x8192x1024_0_1),
    TRef.nullary main_call0.cst (constant S_ .f32 0x7FC00000#32),
    TRef.unary main_call0.cst main_call0.v15 (broadcastInDim S4x8192x1024 ![] bcast_S_S4x8192x1024),
    TRef.ternary main_call0.v14 main_call0.v13 main_call0.v15 main_call0.v16 select,
    unary main_v3 main_v4 ((transpose S4x1024x8192 [0, 2, 1] · transposes_S4x8192x1024_S4x1024x8192_0_2_1) : (⟨S4x8192x1024, .f32⟩ : BufTy).Contents (Elt F) → (⟨S4x1024x8192, .f32⟩ : BufTy).Contents (Elt F)),
    binary main_arg0 main_v4 main_v5 (addf : (⟨S4x1024x8192, .f32⟩ : BufTy).Contents (Elt F) → (⟨S4x1024x8192, .f32⟩ : BufTy).Contents (Elt F) → (⟨S4x1024x8192, .f32⟩ : BufTy).Contents (Elt F)) ]

set_option maxRecDepth 1024 in
/-- @main is that straight line: the two functions' bodies unfolded at their calls, the sequencing reassociated. -/
theorem main_eq (c : Dev nD) : main (F := F) c = seq ops := by
  simp only [main, fn_take.body, fn_where.body, seq, bind_assoc, pure_bind]

attribute [local irreducible] Host.reduce Host.gather in
set_option maxRecDepth 8192 in
set_option maxHeartbeats 1000000 in
/-- The fold of the operations at the result buffer is `refTerm` of the arguments: each operation's result read
    at its own buffer, every other buffer as it was. The reduce and the gather stay folded; the equation never
    looks inside them. -/
theorem out_eq (V : Valuation τ sig (Elt F)) :
    after ops V (main_v5 : DevRef τ sig) = refTerm (V (main_arg0 : DevRef τ sig)) (V (main_arg1 : DevRef τ sig)) := by
  unfold refTerm taken inRange startIdx wrapped positions
  after_results
  rfl

/-- No operation writes the first argument's buffer. -/
theorem arg0_eq (V : Valuation τ sig (Elt F)) :
    after ops V (main_arg0 : DevRef τ sig) = V (main_arg0 : DevRef τ sig) := by
  after_results

/-- No operation writes the second argument's buffer. -/
theorem arg1_eq (V : Valuation τ sig (Elt F)) :
    after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., unary_bufs_sub .., binary_bufs_sub ..⟩

/-- From any memory with zero counters: every weakly fair execution of @main terminates, and every final state has each
    buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The run with the result named: the result buffer ends at `refTerm` of the argument arrays, which end as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5)
          = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v5).trans (out_eq _), (h c main_arg0).trans (arg0_eq _),
      (h c main_arg1).trans (arg1_eq _)⟩)
    (run_main m ρ)

end Cert.ReferenceIdeal.RefRun

end
-- ==== Proof.RefRead.lean ====
/-
  The reference's result, read at an index.

  At (b, d, s) the reference's term `refTerm x pos` is `x (b, d, s) + pos (s, d)`:
  * the index array holds the position `s` at (b, s) — an iota along the position axis, broadcast over the batch;
  * a position is a word below 8192, so it is not negative as a signed word: the lookup's wrap leaves it alone,
    and the range test 0 ≤ s ≤ 8191 passes, at every index; the reduction by `and` over the one-component index
    vector is then 1 everywhere, and the select keeps the gathered row everywhere (the fill value is never read);
  * the gather at (b, s, d) reads the table at row min(s, 8191) = s, column d;
  * the transpose brings (b, s, d) to (b, d, s), and the addition is elementwise.
  No float operation but that one addition is involved, so the statement holds at every float instance.
-/
import proofs.«166556_g19473381720736_cont_8to1_602_5_alg».proof.Proof.RefRun
import proofs.«166556_g19473381720736_cont_8to1_602_5_alg».proof.Proof.PosAdd
import Idealize.ShloMosaic.Lib.Pipeline.Value
import Idealize.ShloMosaic.Lib.ValueIdx
import Idealize.ShloMosaic.Lib.Affine
import Idealize.ShloMosaic.Lib.StableHlo.Predicate

noncomputable section

namespace Cert.ReferenceIdeal.RefRead

open Cert.ReferenceIdeal Cert.ReferenceIdeal.Gen Cert.ReferenceIdeal.RefRun Idealize.ShloMosaic
open Cert.PosAdd (posAdd tableIdx)

variable {F : FTy → Type} [FloatOps F]

/-! ## Indices -/

/-- (batch, position) of a (batch, position, component) index. -/
abbrev bs (k : S4x8192x1.Idx) : S4x8192.Idx := fun a => match a with
  | ⟨0, _⟩ => ⟨(k 0).val, (k 0).isLt⟩
  | ⟨1, _⟩ => ⟨(k 1).val, (k 1).isLt⟩

/-- The one index-vector component over (batch, position) of a (batch, position, feature) index. -/
abbrev bs0 (i : S4x8192x1024.Idx) : S4x8192x1.Idx := fun a => match a with
  | ⟨0, _⟩ => ⟨(i 0).val, (i 0).isLt⟩
  | ⟨1, _⟩ => ⟨(i 1).val, (i 1).isLt⟩
  | ⟨2, _⟩ => ⟨0, by show 0 < 1; omega⟩

/-! ## The index array -/

/-- The index array holds the position. -/
theorem positions_apply (j : S4x8192.Idx) : positions j = BitVec.ofNat 32 (j 1).val := by
  have hj1 : (j 1).val < 8192 := (j 1).isLt
  unfold positions
  refine (broadcastInDim_apply _ _ _ j (fun a => match a with | ⟨0, _⟩ => ⟨0, by show 0 < 1; omega⟩ | ⟨1, _⟩ => ⟨(j 1).val, by show (j 1).val < 8192; omega⟩ : S1x8192.Idx)
    (fun a => match a with
      | ⟨0, _⟩ => by show 0 = (if (1 : Nat) = 1 then 0 else (j 0).val); rw [if_pos rfl]
      | ⟨1, _⟩ => by show (j 1).val = (if (8192 : Nat) = 1 then 0 else (j 1).val); rw [if_neg (by decide)])).trans ?_
  refine (broadcastInDim_apply _ _ _ _ (fun a => match a with | ⟨0, _⟩ => ⟨(j 1).val, by show (j 1).val < 8192; omega⟩ : S8192.Idx)
    (fun a => match a with
      | ⟨0, _⟩ => by show (j 1).val = (if (8192 : Nat) = 1 then 0 else (j 1).val); rw [if_neg (by decide)])).trans ?_
  rfl

/-! ## The wrap and the start indices -/

/-- A word below 8192 is not negative: the wrap keeps it. -/
theorem wrapped_apply (p : IVec S4x8192 32) (j : S4x8192.Idx) (n : Nat) (hn : n < 8192) (hp : p j = BitVec.ofNat 32 n) :
    wrapped p j = BitVec.ofNat 32 n := by
  show Scalar.select (IntOp.cmpi .slt (p j) 0#32) (IntOp.addi (p j) 8192#32) (p j) = _
  rw [hp]
  have h0 : (0#32 : BitVec 32).toInt = 0 := by decide
  have hc : ¬ IntOp.cmpi .slt (BitVec.ofNat 32 n) 0#32 = 1#1 := by
    rw [IntOp.cmpi_slt, StableHlo.Predicate.toInt_ofNat_small n (by omega), h0]
    omega
  rw [ValueIdx.eq_zero_of_ne_one hc, ValueIdx.select_zero]

/-- The start index over (batch, position) is the wrapped index there. -/
theorem startIdx_apply (p : IVec S4x8192 32) (k : S4x8192x1.Idx) : startIdx p k = wrapped p (bs k) := by
  have hk0 : (k 0).val < 4 := (k 0).isLt
  have hk1 : (k 1).val < 8192 := (k 1).isLt
  unfold startIdx
  exact broadcastInDim_apply _ _ _ k (bs k)
    (fun a => match a with
      | ⟨0, _⟩ => by show (k 0).val = (if (4 : Nat) = 1 then 0 else (k 0).val); rw [if_neg (by decide)]
      | ⟨1, _⟩ => by show (k 1).val = (if (8192 : Nat) = 1 then 0 else (k 1).val); rw [if_neg (by decide)])

/-- The start indices of the index array: the position. -/
theorem start_positions (k : S4x8192x1.Idx) : startIdx positions k = BitVec.ofNat 32 (k 1).val := by
  rw [startIdx_apply]
  exact wrapped_apply positions (bs k) (k 1).val (k 1).isLt (positions_apply (bs k))

/-! ## The range test -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

/-- Start indices that are all words below 8192 pass the range test everywhere. -/
theorem inRange_eq_one (q : IVec S4x8192x1 32) (hq : ∀ k, ∃ n : Nat, n < 8192 ∧ q k = BitVec.ofNat 32 n) (j : S4x8192.Idx) :
    inRange q j = 1#1 := by
  unfold inRange
  rw [Host.reduce_eq_foldl]
  refine foldl_andi_ones _ (fun k => ?_) _
  obtain ⟨n, hn, hk⟩ := hq k
  show IntOp.andi (IntOp.cmpi .sge (q k) 0#32) (IntOp.cmpi .sle (q k) 8191#32) = 1#1
  rw [hk, IntOp.andi_eq_one, IntOp.cmpi_sge, IntOp.cmpi_sle, StableHlo.Predicate.toInt_ofNat_small n (by omega)]
  have h0 : (0#32 : BitVec 32).toInt = 0 := by decide
  have h1 : (8191#32 : BitVec 32).toInt = 8191 := by decide
  rw [h0, h1]
  omega

/-! ## The gather -/

/-- The gather at (b, s, d): the table at the row its start index names, read signed and clamped to the table, and
    column d. -/
theorem gather_apply {α : Type} (pos : S8192x1024.Idx → α) (q : IVec S4x8192x1 32) (i : S4x8192x1024.Idx) :
    Host.gather gather_S8192x1024_S4x8192x1_S4x8192x1024_2_0_n_n_0_2_11024 pos q i
      = pos (fun a => match a with
          | ⟨0, _⟩ => ⟨min (q (bs0 i)).toInt.toNat 8191, by show min _ 8191 < 8192; omega⟩
          | ⟨1, _⟩ => ⟨(i 2).val, (i 2).isLt⟩) := by
  unfold Host.gather
  congr 1
  funext a
  refine Fin.ext ?_
  match a with
  | ⟨0, _⟩ =>
    show gather_S8192x1024_S4x8192x1_S4x8192x1024_2_0_n_n_0_2_11024.start i q 0
        + gather_S8192x1024_S4x8192x1_S4x8192x1024_2_0_n_n_0_2_11024.batchCoord i 0
        + gather_S8192x1024_S4x8192x1_S4x8192x1024_2_0_n_n_0_2_11024.offCoord i 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x1024_S4x8192x1_S4x8192x1024_2_0_n_n_0_2_11024.startIndexMap from List.mem_singleton.mpr rfl)]
    have hsi : gather_S8192x1024_S4x8192x1_S4x8192x1024_2_0_n_n_0_2_11024.siIdx i
        ⟨List.idxOf (0 : Fin 2) gather_S8192x1024_S4x8192x1_S4x8192x1024_2_0_n_n_0_2_11024.startIndexMap,
          List.idxOf_lt_length_iff.2 (List.mem_singleton.mpr rfl)⟩ = bs0 i := by
      funext b; refine Fin.ext ?_
      match b with
      | ⟨0, _⟩ => rfl
      | ⟨1, _⟩ => rfl
      | ⟨2, _⟩ => rfl
    rw [hsi]
    rfl
  | ⟨1, _⟩ =>
    show gather_S8192x1024_S4x8192x1_S4x8192x1024_2_0_n_n_0_2_11024.start i q 1
        + gather_S8192x1024_S4x8192x1_S4x8192x1024_2_0_n_n_0_2_11024.batchCoord i 1
        + gather_S8192x1024_S4x8192x1_S4x8192x1024_2_0_n_n_0_2_11024.offCoord i 1 = (i 2).val
    rw [GatherDims.batchCoord_eq_zero _ _ _ List.not_mem_nil]
    unfold GatherDims.start
    rw [dif_neg (show ¬ (1 : Fin 2) ∈ gather_S8192x1024_S4x8192x1_S4x8192x1024_2_0_n_n_0_2_11024.startIndexMap from by decide)]
    unfold GatherDims.offCoord
    rw [dif_pos (show (1 : Fin 2) ∈ gather_S8192x1024_S4x8192x1_S4x8192x1024_2_0_n_n_0_2_11024.sKept from by decide)]
    simp only [Nat.zero_add, Nat.add_zero]
    rfl

/-! ## The lookup and the result -/

/-- The lookup at (b, s, d) is the table at (s, d). -/
theorem taken_apply (pos : FVec F S8192x1024 .f32) (i : S4x8192x1024.Idx) :
    taken pos positions i = pos (fun a => match a with
      | ⟨0, _⟩ => ⟨(i 1).val, (i 1).isLt⟩
      | ⟨1, _⟩ => ⟨(i 2).val, (i 2).isLt⟩) := by
  have hi1 : (i 1).val < 8192 := (i 1).isLt
  unfold taken
  rw [ValueIdx.select_apply]
  have hmask : broadcastInDim S4x8192x1024 ![0, 1] bcast_S4x8192_S4x8192x1024_0_1 (inRange (startIdx positions)) i = 1#1 := by
    unfold broadcastInDim
    exact inRange_eq_one _ (fun k => ⟨(k 1).val, (k 1).isLt, start_positions k⟩) _
  rw [hmask, ValueIdx.select_one, gather_apply]
  refine congrArg pos (funext fun a => Fin.ext ?_)
  match a with
  | ⟨0, _⟩ =>
    show min (startIdx positions (bs0 i)).toInt.toNat 8191 = (i 1).val
    rw [start_positions, StableHlo.Predicate.toInt_ofNat_small _ (show ((bs0 i) 1).val < 2 ^ 31 from by show (i 1).val < 2 ^ 31; omega)]
    show min (((i 1).val : Int)).toNat 8191 = (i 1).val
    rw [Int.toNat_natCast]
    omega
  | ⟨1, _⟩ => rfl

/-- The reference's term is `posAdd`: at (b, d, s) the activation plus the table at (s, d). -/
theorem refTerm_eq (x : FVec F S4x1024x8192 .f32) (pos : FVec F S8192x1024 .f32) : refTerm x pos = posAdd x pos := by
  funext i
  unfold refTerm
  show FloatOps.addf (x i) (transpose S4x1024x8192 [0, 2, 1] (taken pos positions) transposes_S4x8192x1024_S4x1024x8192_0_2_1 i)
      = FloatOps.addf (x i) (pos (tableIdx i))
  refine congrArg (FloatOps.addf (x i)) ?_
  refine (transpose_apply [0, 2, 1] _ _ i (fun a => match a with
      | ⟨0, _⟩ => ⟨(i 0).val, (i 0).isLt⟩
      | ⟨1, _⟩ => ⟨(i 2).val, (i 2).isLt⟩
      | ⟨2, _⟩ => ⟨(i 1).val, (i 1).isLt⟩ : S4x8192x1024.Idx)
    (fun b => match b with
      | ⟨0, _⟩ => rfl
      | ⟨1, _⟩ => rfl
      | ⟨2, _⟩ => rfl)).trans ?_
  rw [taken_apply]
  refine congrArg pos (funext fun a => Fin.ext ?_)
  match a with
  | ⟨0, _⟩ => rfl
  | ⟨1, _⟩ => rfl

end Cert.ReferenceIdeal.RefRead

end
-- ==== Proof.lean ====
/-
  The certificate: the kernel adds the transposed position table to every batch of the activations, and so does
  the reference.

  The reference gathers the table's rows at `positions = arange` (so row s at position s), transposes the result to
  (batch, feature, position) and adds it to the activations; the kernel streams (feature, position) tiles of the
  activations, transposes the matching tile of the table and adds it to each batch of the tile. Both end with the
  array `posAdd x pos`: at (b, d, s) the value `x (b, d, s) + pos (s, d)`. The only float operation on either
  side is that one addition per element, the same on both sides, so no law of the extended reals is needed and the
  precondition (finite inputs) is never opened.

  * The three frames: the kernel's two are the generated frame certificates; the reference's is its run
    (Proof/RefRun.lean) with the result dropped.
  * `preserves`: the idealization rewrote nothing, so the conjunct is `True`.
  * `algebraic`: the kernel's output array is `posAdd` of its arguments (Proof/KernelArray.lean, over the generated
    blockwise value leg), the reference's result is `refTerm` of its arguments (Proof/RefRun.lean), and `refTerm` is
    `posAdd` index by index (Proof/RefRead.lean).
-/
import proofs.«166556_g19473381720736_cont_8to1_602_5_alg».proof.Defs
import proofs.«166556_g19473381720736_cont_8to1_602_5_alg».proof.Proof.Gen.Kernel
import proofs.«166556_g19473381720736_cont_8to1_602_5_alg».proof.Proof.Gen.Kernel.Skeleton
import proofs.«166556_g19473381720736_cont_8to1_602_5_alg».proof.Proof.Gen.Kernel.Launch
import proofs.«166556_g19473381720736_cont_8to1_602_5_alg».proof.Proof.Gen.Kernel.Points
import proofs.«166556_g19473381720736_cont_8to1_602_5_alg».proof.Proof.Gen.Kernel.Frame
import proofs.«166556_g19473381720736_cont_8to1_602_5_alg».proof.Proof.Gen.KernelIdeal
import proofs.«166556_g19473381720736_cont_8to1_602_5_alg».proof.Proof.Gen.KernelIdeal.Skeleton
import proofs.«166556_g19473381720736_cont_8to1_602_5_alg».proof.Proof.Gen.KernelIdeal.Launch
import proofs.«166556_g19473381720736_cont_8to1_602_5_alg».proof.Proof.Gen.KernelIdeal.Points
import proofs.«166556_g19473381720736_cont_8to1_602_5_alg».proof.Proof.Gen.KernelIdeal.Frame
import proofs.«166556_g19473381720736_cont_8to1_602_5_alg».proof.Proof.Gen.KernelIdeal.Value
import proofs.«166556_g19473381720736_cont_8to1_602_5_alg».proof.Proof.Gen.ReferenceIdeal
import proofs.«166556_g19473381720736_cont_8to1_602_5_alg».proof.Proof.Gen.Pre_finite_inputs
import proofs.«166556_g19473381720736_cont_8to1_602_5_alg».proof.Proof.PosAdd
import proofs.«166556_g19473381720736_cont_8to1_602_5_alg».proof.Proof.KernelArray
import proofs.«166556_g19473381720736_cont_8to1_602_5_alg».proof.Proof.RefRun
import proofs.«166556_g19473381720736_cont_8to1_602_5_alg».proof.Proof.RefRead
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories that agree on the arguments both programs end with the array `posAdd x pos`. -/
theorem algebraic : Cert.algebraic_KernelIdeal_ReferenceIdeal := by
  intro m ρ m' ρ' _ hagree
  refine ⟨fun c => Cert.PosAdd.posAdd
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefRead.refTerm_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
